-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_

variable [Facts]

def fn {F : FTy → Type} [FloatOps F] (main_arg0 : FVec F S10000x128 .f32) (main_arg1 : FVec F S10000x10000 .f32) (main_arg2 : FVec F S128x128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  main_v13
-- ==== Kernel.lean ====
abbrev S10000x128 : Shape := ⟨2, ![10000, 128]⟩
abbrev S10000x10000 : Shape := ⟨2, ![10000, 10000]⟩
abbrev S128x128 : Shape := ⟨2, ![128, 128]⟩
abbrev S640x10000 : Shape := ⟨2, ![640, 10000]⟩
abbrev S640x128 : Shape := ⟨2, ![640, 128]⟩

abbrev nBuf : Space → Nat
  | .hbm => 4
  | .vmem => 7
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S10000x128, .f32⟩
  | .local _ .vmem, ⟨0, _⟩ => ⟨S10000x128, .f32⟩
  | .local _ .vmem, ⟨1, _⟩ => ⟨S640x10000, .f32⟩
  | .local _ .vmem, ⟨2, _⟩ => ⟨S640x10000, .f32⟩
  | .local _ .vmem, ⟨3, _⟩ => ⟨S128x128, .f32⟩
  | .local _ .vmem, ⟨4, _⟩ => ⟨S640x128, .f32⟩
  | .local _ .vmem, ⟨5, _⟩ => ⟨S640x128, .f32⟩
  | .local _ .vmem, ⟨6, _⟩ => ⟨S10000x128, .bf16⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S640x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S640x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  bitsLt_bf16_f32 : FTy.bits .bf16 < FTy.bits .f32
  shapeCasts_S10000x128_S10000x128 : S10000x128.ShapeCasts S10000x128
  packedbf16_S10000x128_S10000x128_0_0 : (Rect.unit (s := S10000x128) ![0, 0] S10000x128.size inb_S10000x128_S10000x128_0_0).PackedRows (EltTy.packing .bf16)
  inb_S640x10000_S640x10000_0_0 : ∀ a, (![0, 0] : Fin 2 → Nat) a + S640x10000.size a ≤ S640x10000.size a
  h_S640x10000 : 0 < S640x10000.numel
  inb_S640x128_S640x128_0_0 : ∀ a, (![0, 0] : Fin 2 → Nat) a + S640x128.size a ≤ S640x128.size a
  h_S640x128 : 0 < S640x128.numel
  dot_S10000x128_S128x128_S10000x128_1_0_0_1_n_n_wf : DotDims.WF S10000x128 S128x128 S10000x128 [1] [0] [0] [1] [] []
  dot_S640x10000_S10000x128_S640x128_1_0_0_1_n_n_wf : DotDims.WF S640x10000 S10000x128 S640x128 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S640x10000.size a < S10000x10000.size a
  hwx0_1 : ∀ i : grid0.Coords, EltTy.bits .f32 = 32 ∨ (Rect.unit (s := S10000x10000) (fun a => cc0_transform_1 i a * S640x10000.size a) (fun a => (Pipeline.Clip.of (cc0_transform_1 i a) (S640x10000.size a) (S10000x10000.size a)).extent (S640x10000.size a)) fun a => Pipeline.Clip.inb (Pipeline.Clip.ok_of (hstart0_1 i a))).WholeWords (EltTy.packing .f32)
  hwxs0_1 : ∀ i : grid0.Coords, EltTy.bits .f32 = 32 ∨ (Rect.unit (s := S640x10000) (fun _ => 0) (fun a => (Pipeline.Clip.of (cc0_transform_1 i a) (S640x10000.size a) (S10000x10000.size a)).extent (S640x10000.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S640x128.size a < S10000x128.size a
  hwx0_3 : ∀ i : grid0.Coords, EltTy.bits .f32 = 32 ∨ (Rect.unit (s := S10000x128) (fun a => cc0_transform_3 i a * S640x128.size a) (fun a => (Pipeline.Clip.of (cc0_transform_3 i a) (S640x128.size a) (S10000x128.size a)).extent (S640x128.size a)) fun a => Pipeline.Clip.inb (Pipeline.Clip.ok_of (hstart0_3 i a))).WholeWords (EltTy.packing .f32)
  hwxs0_3 : ∀ i : grid0.Coords, EltTy.bits .f32 = 32 ∨ (Rect.unit (s := S640x128) (fun _ => 0) (fun a => (Pipeline.Clip.of (cc0_transform_3 i a) (S640x128.size a) (S10000x128.size a)).extent (S640x128.size a)) fun a => (Nat.zero_add _).trans_le (Pipeline.Clip.extent_le (Pipeline.Clip.ok_of (hstart0_3 i a)))).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S640x10000_S10000x128_S640x128_1_0_0_1_n_n : DotDims S640x10000 S10000x128 S640x128 where
  lhsContracting := [1]
  rhsContracting := [0]
  lhsNonContracting := [0]
  rhsNonContracting := [1]
  lhsBatch := []
  rhsBatch := []
  wf := dot_S640x10000_S10000x128_S640x128_1_0_0_1_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpecClip (Memref.whole main_arg1) S640x10000.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpecClip (Memref.whole main_v0) S640x128.size cc0_transform_3 reads0_3 true false 2 stage0_3 sem0_3
    hrank0 hreads0_3 hstart0_3 nbuf0_3 (Memref.isWhole_whole _) hwx0_3 hwxs0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩

abbrev nBuf : Space → Nat
  | .hbm => 5
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S10000x128, .f32⟩
  | .hbm, ⟨4, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]

class Facts₀ : Prop where
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.BitsFrame.lean ====
import proofs.«130303_g21698174779868_cont_sun_m_729_11_alg».proof.Proof.Gen.Kernel.Frame
import proofs.«130303_g21698174779868_cont_sun_m_729_11_alg».proof.Proof.Gen.Kernel.Skeleton
import Idealize.ShloMosaic.Lib.Pipeline.FrameBody
import Idealize.ShloMosaic.Lib.Tactic
import Idealize.ShloMosaic.PureOps.BitExact

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

/-! ## The body, run to "every buffer holds something"

The frame claim speaks of the three argument arrays only, so of the five buffers the body touches (the
four windows' current staging buffers and the scratch) it is enough to know that each is handed back
whole, at some contents. -/

/-- The body's one branch condition, from the grid coordinate: the point is the first. -/
abbrev firstPoint (i : grid0.Coords) : Prop :=
  (Scalar.cmpi .ne (Scalar.extui (Scalar.cmpi .eq (BitVec.ofNat 32 (i 0).val) 0#32)) 0#32) = 1#1

/-- The body at any point, whichever way its branch goes: it only loads from the feature table's, the
    adjacency block's and the weights' buffers, and it overwrites the output block's buffer (and, at the
    first point, the scratch) whole; so every one of the five comes back at some contents. -/
theorem run_some (c : Dev nD) (i : grid0.Coords)
    (arg1 : Memref sig .tc .vmem S10000x128 .f32) (harg1 : arg1.IsWhole) (arg2 : Memref sig .tc .vmem S640x10000 .f32) (harg2 : arg2.IsWhole)
    (arg3 : Memref sig .tc .vmem S128x128 .f32) (harg3 : arg3.IsWhole) (arg4 : Memref sig .tc .vmem S640x128 .f32) (harg4 : arg4.IsWhole)
    (arg5 : Memref sig .tc .vmem S10000x128 .bf16) (harg5 : arg5.IsWhole)
    (x0 : Vec F S10000x128 .f32) (x1 : Vec F S640x10000 .f32) (x2 : Vec F S128x128 .f32) (y : Vec F S640x128 .f32) (s : Vec F S10000x128 .bf16)
    (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare y ∗ owns (c : Thread nD τ) arg5 fullShare s
        ∗ (iprop((∃ X, owns (c : Thread nD τ) arg1 fullShare X) ∗ (∃ X, owns (c : Thread nD τ) arg2 fullShare X) ∗ (∃ X, owns (c : Thread nD τ) arg3 fullShare X)
            ∗ (∃ X, owns (c : Thread nD τ) arg4 fullShare X) ∗ (∃ X, owns (c : Thread nD τ) arg5 fullShare X)) -∗ K ⟨⟩))
      ⊢ wp frame (wpE (defs₀ (F := F)) Variants.none c none) E (cc0__gcn_kernel i arg1 harg1 arg2 harg2 arg3 harg3 arg4 harg4 arg5 harg5) K := by
  simp only [cc0__gcn_kernel_eq_skeleton]; unfold cc0__gcn_kernel_skel
  unfold owns
  iintro ⟨⟨%f0, %hf0, H0⟩, ⟨%f1, %hf1, H1⟩, ⟨%f2, %hf2, H2⟩, ⟨%f3, %hf3, H3⟩, ⟨%f4, %hf4, H4⟩, Hk⟩
  by_cases hc : firstPoint i
  · sl_exec (disch := exact hc)
    sl_step
    iapply Hk
    isplitl [H0]
    · iexists _; iexists _; isplitr
      swap; · iexact H0
      ipureintro; rfl
    isplitl [H1]
    · iexists _; iexists _; isplitr
      swap; · iexact H1
      ipureintro; rfl
    isplitl [H2]
    · iexists _; iexists _; isplitr
      swap; · iexact H2
      ipureintro; rfl
    isplitl [H3]
    · iexists _; iexists _; isplitr
      swap; · iexact H3
      ipureintro; rfl
    · iexists _; iexists _; isplitr
      swap; · iexact H4
      ipureintro; rfl
  · sl_exec (disch := exact hc)
    sl_step
    iapply Hk
    isplitl [H0]
    · iexists _; iexists _; isplitr
      swap; · iexact H0
      ipureintro; rfl
    isplitl [H1]
    · iexists _; iexists _; isplitr
      swap; · iexact H1
      ipureintro; rfl
    isplitl [H2]
    · iexists _; iexists _; isplitr
      swap; · iexact H2
      ipureintro; rfl
    isplitl [H3]
    · iexists _; iexists _; isplitr
      swap; · iexact H3
      ipureintro; rfl
    · iexists _; iexists _; isplitr
      swap; · iexact H4
      ipureintro; rfl

/-! ## The proof data: relations that say nothing

At the machine's words the matrix product is opaque in its whole operand, and the last block of the
adjacency rows is filled past the array's end with words nothing names; so what the body leaves in the
output block's buffer has no name. The frame claim does not read it: every window's relation is the one
that holds of any two contents, the invariant is the class's (the scratch at some contents, the generator
register at some state), nothing is owed and every share is full. -/

/-- The proof data of the one pipeline on core `c`: the arrays as launched; of what the body leaves in a
    staging buffer, nothing. -/
def rdat (m : (ℓ : Loc nD τ sig) → Buf (Elt F) ℓ) (c : Dev nD) : RDat τ (Elt F) Unit ℕ (UR sig nD τ) ℕ cfg0 c where
  A w := Gen.V m c (Pipeline.arrRef spec0 w)
  after _ _ _ _ := True
  Φ _ := Pipeline.ΦA spec0 c
  q _ := fullShare
  owed _ := 0

/-- The class's invariant with the scratch as a whole memref owned at some contents: what the body is
    handed and hands back. -/
theorem PhiA_eq (c : Dev nD) :
    (Pipeline.ΦA spec0 c : sProp 𝕄)
      = iprop((∃ d, owns (c : Thread nD τ) (Memref.whole cc0_scratch0 : Memref sig .tc .vmem S10000x128 .bf16) fullShare d) ∗ (∃ r, prngReg c r)) := by
  unfold Pipeline.ΦA; rw [scopedRest0_eq]; simp only [owns_whole]

/-- What the body is called with at point `t`, the windows one by one: the invariant, what the core owes
    (nothing), and each window's current staging buffer at the contents `Y` names. -/
def bodyPre (m : (ℓ : Loc nD τ sig) → Buf (Elt F) ℓ) (c : Dev nD) (t : Fin cfg0.N)
    (Y : (w : Fin cfg0.W) → (cfg0.win w).block.Idx → Elt F (cfg0.win w).elt) : sProp 𝕄 :=
  iprop((rdat m c).Φ t.castSucc ∗ (rdat m c).owesAt () t.castSucc
    ∗ owns (c : Thread nD τ) (st0_0 t) fullShare (Y 0) ∗ owns (c : Thread nD τ) (st0_1 t) fullShare (Y 1)
    ∗ owns (c : Thread nD τ) (st0_2 t) fullShare (Y 2) ∗ owns (c : Thread nD τ) (st0_3 t) fullShare (Y 3))

/-- What it returns: the same, each buffer at some contents of which nothing is asked. -/
def bodyPost (m : (ℓ : Loc nD τ sig) → Buf (Elt F) ℓ) (c : Dev nD) (t : Fin cfg0.N) : sProp 𝕄 :=
  iprop((rdat m c).Φ t.succ ∗ (rdat m c).owesAt () t.succ
    ∗ (∃ X, ⌜True⌝ ∗ owns (c : Thread nD τ) (st0_0 t) fullShare X) ∗ (∃ X, ⌜True⌝ ∗ owns (c : Thread nD τ) (st0_1 t) fullShare X)
    ∗ (∃ X, ⌜True⌝ ∗ owns (c : Thread nD τ) (st0_2 t) fullShare X) ∗ (∃ X, ⌜True⌝ ∗ owns (c : Thread nD τ) (st0_3 t) fullShare X))

/-- The body at any point meets it: the invariant lends it the scratch, the run hands all five buffers back
    at some contents, the scratch returns to the invariant; the core owes nothing before or after. -/
theorem sound_body (m : (ℓ : Loc nD τ sig) → Buf (Elt F) ℓ) (c : Dev nD) (t : Fin cfg0.N)
    (Y : (w : Fin cfg0.W) → (cfg0.win w).block.Idx → Elt F (cfg0.win w).elt) :
    bodyPre m c t Y ⊢ wp frame (wpE (defs₀ (F := F)) Variants.none c none) Set.univ (bodyAt0 t) (fun _ => bodyPost m c t) := by
  unfold bodyPre bodyPost
  rw [show (rdat m c).owesAt () t.succ = (rdat m c).owesAt () t.castSucc from rfl]
  rw [show (rdat m c).Φ t.succ = Pipeline.ΦA spec0 c from rfl, show (rdat m c).Φ t.castSucc = Pipeline.ΦA spec0 c from rfl, PhiA_eq]
  iintro ⟨⟨⟨%d, HS⟩, Hg⟩, Ho, H0, H1, H2, H3⟩
  iapply (run_some c (grid0.coords t) _ _ _ _ _ _ _ _ _ _ (Y 0) (Y 1) (Y 2) (Y 3) d Set.univ _)
  isplitl [H0]; · iexact H0
  isplitl [H1]; · iexact H1
  isplitl [H2]; · iexact H2
  isplitl [H3]; · iexact H3
  isplitl [HS]; · iexact HS
  iintro ⟨⟨%X0, H0⟩, ⟨%X1, H1⟩, ⟨%X2, H2⟩, ⟨%X3, H3⟩, ⟨%X4, HS⟩⟩
  isplitl [HS Hg]
  · isplitl [HS]
    · iexists X4; iexact HS
    iexact Hg
  isplitl [Ho]; · iexact Ho
  isplitl [H0]
  · iexists X0; isplitr; · ipureintro; trivial
    iexact H0
  isplitl [H1]
  · iexists X1; isplitr; · ipureintro; trivial
    iexact H1
  isplitl [H2]
  · iexists X2; isplitr; · ipureintro; trivial
    iexact H2
  · iexists X3; isplitr; · ipureintro; trivial
    iexact H3

/-- The library's body obligation of the relational data, at every point; what the buffers may hold there
    is not used. -/
theorem body_obligation (m : (ℓ : Loc nD τ sig) → Buf (Elt F) ℓ) (c : Dev nD) :
    (rdat (F := F) m c).BodyObligation (defs₀ (F := F)) Variants.none () Set.univ := fun t Y _ => by
  rw [bigSep_W0, bigSep_W0]
  show bodyPre m c t Y ⊢ wp frame (wpE (defs₀ (F := F)) Variants.none c none) Set.univ (bodyAt0 t) (fun _ => bodyPost m c t)
  exact sound_body m c t Y

/-- Every array is held at the full share: an output by the library's rule, an input by the data's. -/
theorem share_full (m : (ℓ : Loc nD τ sig) → Buf (Elt F) ℓ) (c : Dev nD) (w : Fin cfg0.W) : (rdat m c).share w = fullShare := by
  unfold RDat.share; split <;> rfl

/-! ## The run and the frame -/

-- the statement names the program's body table `defs`, a plain definition (the pipelines' table over the kernels');
-- it is matched against the launch theorem's conclusion, stated over that table spelled out, by unfolding it
set_option backward.isDefEq.respectTransparency.types false in
/-- At the compiled mesh, for any values, from any memory with zero counters: every weakly fair execution of
    @main on the TensorCores terminates, and in every final state each array of the pipeline holds contents
    it may hold after every write-back (an input: its contents at launch) and every other unscoped buffer
    what it held at launch. -/
theorem run_main (m : (ℓ : Loc nD τ sig) → Buf (Elt F) ℓ) (ρ : Dev nD → PrngReg) :
    θ_run defs (onTc (τ := τ) (main (F := F))) (s₀ m ρ) (Pipeline.RDat.FramePost cfg0 (rdat m) (Gen.V m)) :=
  Pipeline.RDat.θ_run_frame cfgs (0 : Fin 1) launch0 defs₀ Variants.none (rdat m) m ρ main
    (hbody := fun c => body_obligation m c) (hshare := fun c w => share_full m c w)
    (howed := fun _ _ => rfl) (V := Gen.V m) (hmain := Gen.hmain m Variants.none) (hA := fun _ _ => rfl) (hΦ := fun _ _ => rfl)

/-- The frame at any float family: the three argument arrays are input windows' arrays, which no write-back
    touches, so each ends at its launch contents. -/
theorem frame_any (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(Pipeline.RDat.FramePost.arr_in h c 0 rfl).trans (Gen.V_main_arg0 m c),
      (Pipeline.RDat.FramePost.arr_in h c 1 rfl).trans (Gen.V_main_arg1 m c),
      (Pipeline.RDat.FramePost.arr_in h c 2 rfl).trans (Gen.V_main_arg2 m c)⟩) (run_main m ρ)

/-- THE FRAME of the word-level program: it runs, and its three argument arrays end as launched. -/
theorem frame (m : (ℓ : Loc nD τ sig) → Buf (Elt Bits) ℓ) (ρ : Dev nD → PrngReg) :
    θ_run (defs (F := Bits)) (onTc (τ := τ) (main (F := Bits))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_any m ρ

/-- info: 'Cert.Kernel.Body.frame' depends on axioms: [propext, Classical.choice, Quot.sound] -/
#guard_msgs in #print axioms frame

end Cert.Kernel.Body

end
-- ==== Proof.IdealBody.lean ====
import proofs.«130303_g21698174779868_cont_sun_m_729_11_alg».proof.Proof.Gen.KernelIdeal.Frame
import proofs.«130303_g21698174779868_cont_sun_m_729_11_alg».proof.Proof.Gen.KernelIdeal.Skeleton
import Idealize.ShloMosaic.Lib.Pipeline.FrameBody
import Idealize.ShloMosaic.Lib.Pipeline.Value
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- One unmasked store through the whole-shape rectangle at zero offsets leaves its payload, whatever the buffer held. -/
theorem read_writes_whole {sg : RefSig} {κ : Kind} {sp : Space} {S : Shape} {e : EltTy} {Val : EltTy → Type} [∀ e, Nonempty (Val e)]
    (v : View sg κ sp S e) (f : v.ty.Contents Val) {off : Fin S.rank → Nat} (h : off = fun _ => 0)
    (inb : ∀ a, off a + S.size a ≤ S.size a) (w : S.Idx → Val e) :
    v.read Val (v.writes Val f [(⟨Rect.unit off S.size inb, w⟩ : View.Piece Val S e)]) = w := by
  rw [View.read_writes_eq_canon v f _ (fun y => ⟨_, List.mem_singleton_self _, View.mem_set_unit_zero h inb y⟩), View.canon_unit_zero h]

/-- The body's one branch condition, from the grid coordinate: the point is the first. -/
abbrev firstPoint (i : grid0.Coords) : Prop :=
  (Scalar.cmpi .ne (Scalar.extui (Scalar.cmpi .eq (BitVec.ofNat 32 (i 0).val) 0#32)) 0#32) = 1#1

theorem firstPoint_iff : ∀ t : Fin cfg0.N, firstPoint (grid0.coords t) ↔ t.val = 0 :=
  (by decide +kernel : ∀ t : Fin grid0.N, firstPoint (grid0.coords t) ↔ t.val = 0)

/-- The body at the first point: the feature table and the weights are loaded whole, their product (narrowed to the
    scratch's format) is stored whole into the scratch; then the block of the adjacency rows and the scratch just
    written are loaded and their product is stored whole into the output block's buffer. -/
theorem run_first (c : Dev nD) (i : grid0.Coords) (hc : firstPoint i)
    (arg1 : Memref sig .tc .vmem S10000x128 .f32) (harg1 : arg1.IsWhole) (arg2 : Memref sig .tc .vmem S640x10000 .f32) (harg2 : arg2.IsWhole)
    (arg3 : Memref sig .tc .vmem S128x128 .f32) (harg3 : arg3.IsWhole) (arg4 : Memref sig .tc .vmem S640x128 .f32) (harg4 : arg4.IsWhole)
    (arg5 : Memref sig .tc .vmem S10000x128 .bf16) (harg5 : arg5.IsWhole)
    (x0 : Vec F S10000x128 .f32) (x1 : Vec F S640x10000 .f32) (x2 : Vec F S128x128 .f32) (y : Vec F S640x128 .f32) (s : Vec F S10000x128 .bf16)
    (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare y ∗ owns (c : Thread nD τ) arg5 fullShare s
        ∗ (iprop(owns (c : Thread nD τ) arg1 fullShare x0 ∗ owns (c : Thread nD τ) arg2 fullShare x1 ∗ owns (c : Thread nD τ) arg3 fullShare x2
            ∗ owns (c : Thread nD τ) arg4 fullShare (k0_pay2 x1 (k0_pay1 x0 x2)) ∗ owns (c : Thread nD τ) arg5 fullShare (k0_pay1 x0 x2)) -∗ K ⟨⟩))
      ⊢ wp frame (wpE (defs₀ (F := F)) Variants.none c none) E (cc0__gcn_kernel i arg1 harg1 arg2 harg2 arg3 harg3 arg4 harg4 arg5 harg5) K := by
  simp only [cc0__gcn_kernel_eq_skeleton]; unfold cc0__gcn_kernel_skel
  unfold owns
  iintro ⟨⟨%f0, %hf0, H0⟩, ⟨%f1, %hf1, H1⟩, ⟨%f2, %hf2, H2⟩, ⟨%f3, %hf3, H3⟩, ⟨%f4, %hf4, H4⟩, Hk⟩
  obtain rfl := harg1.eq_unread hf0; obtain rfl := harg2.eq_unread hf1; obtain rfl := harg3.eq_unread hf2
  obtain rfl := harg4.eq_unread hf3; obtain rfl := harg5.eq_unread hf4
  sl_exec (disch := exact hc)
  sl_step
  have hz : (![0, 0] : Fin 2 → Nat) = fun _ => 0 := funext fun a => by fin_cases a <;> rfl
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr
    swap; · iexact H3
    ipureintro
    sl_unfold_words
    rw [read_writes_whole _ _ hz]
    simp only [View.readAt_eq_ld, hf0, hf1, hf2, View.ld_unit_zero (S := S10000x128) hz, View.ld_unit_zero (S := S640x10000) hz,
      View.ld_unit_zero (S := S128x128) hz, View.readCov_unit_zero (S := S10000x128) _ hz]
  · iexists _; isplitr
    swap; · iexact H4
    ipureintro
    sl_unfold_words
    rw [read_writes_whole _ _ hz]
    simp only [View.readAt_eq_ld, hf0, hf1, hf2, View.ld_unit_zero (S := S10000x128) hz, View.ld_unit_zero (S := S128x128) hz]

/-- The body at a later point: the branch is skipped; the block of the adjacency rows is loaded, the scratch is
    loaded as the point before left it, and their product is stored whole into the output block's buffer. -/
theorem run_rest (c : Dev nD) (i : grid0.Coords) (hc : ¬firstPoint i)
    (arg1 : Memref sig .tc .vmem S10000x128 .f32) (harg1 : arg1.IsWhole) (arg2 : Memref sig .tc .vmem S640x10000 .f32) (harg2 : arg2.IsWhole)
    (arg3 : Memref sig .tc .vmem S128x128 .f32) (harg3 : arg3.IsWhole) (arg4 : Memref sig .tc .vmem S640x128 .f32) (harg4 : arg4.IsWhole)
    (arg5 : Memref sig .tc .vmem S10000x128 .bf16) (harg5 : arg5.IsWhole)
    (x0 : Vec F S10000x128 .f32) (x1 : Vec F S640x10000 .f32) (x2 : Vec F S128x128 .f32) (y : Vec F S640x128 .f32) (s : Vec F S10000x128 .bf16)
    (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare y ∗ owns (c : Thread nD τ) arg5 fullShare s
        ∗ (iprop(owns (c : Thread nD τ) arg1 fullShare x0 ∗ owns (c : Thread nD τ) arg2 fullShare x1 ∗ owns (c : Thread nD τ) arg3 fullShare x2
            ∗ owns (c : Thread nD τ) arg4 fullShare (k0_pay2 x1 s) ∗ owns (c : Thread nD τ) arg5 fullShare s) -∗ K ⟨⟩))
      ⊢ wp frame (wpE (defs₀ (F := F)) Variants.none c none) E (cc0__gcn_kernel i arg1 harg1 arg2 harg2 arg3 harg3 arg4 harg4 arg5 harg5) K := by
  simp only [cc0__gcn_kernel_eq_skeleton]; unfold cc0__gcn_kernel_skel
  unfold owns
  iintro ⟨⟨%f0, %hf0, H0⟩, ⟨%f1, %hf1, H1⟩, ⟨%f2, %hf2, H2⟩, ⟨%f3, %hf3, H3⟩, ⟨%f4, %hf4, H4⟩, Hk⟩
  obtain rfl := harg1.eq_unread hf0; obtain rfl := harg2.eq_unread hf1; obtain rfl := harg3.eq_unread hf2
  obtain rfl := harg4.eq_unread hf3; obtain rfl := harg5.eq_unread hf4
  sl_exec (disch := exact hc)
  sl_step
  have hz : (![0, 0] : Fin 2 → Nat) = fun _ => 0 := funext fun a => by fin_cases a <;> rfl
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr
    swap; · iexact H3
    ipureintro
    sl_unfold_words
    rw [read_writes_whole _ _ hz]
    simp only [View.readAt_eq_ld, hf1, hf4, View.ld_unit_zero (S := S10000x128) hz, View.ld_unit_zero (S := S640x10000) hz]
  · iexists _; isplitr; · ipureintro; exact hf4
    iexact H4

end Cert.KernelIdeal.Body

end
-- ==== Proof.IdealData.lean ====
/-
  The proof data of the idealized kernel's one pipeline, at the ideal values.

  The feature table and the weights are staged whole and fetched once; the adjacency matrix is staged in blocks of
  640 rows, fetched at every point, the last block cut at the array's end (400 rows of it inside); the result is
  written back at every point in blocks of 640 rows, the last cut likewise. The scratch holds, from the first point
  on, the product of the feature table and the weights. After the body at a point the result's buffer holds the
  staged block of adjacency rows times the scratch: on the rows inside the array that does not depend on what fills
  the staged block past the array's end, which is all that is ever written back.
-/
import proofs.«130303_g21698174779868_cont_sun_m_729_11_alg».proof.Proof.Gen.KernelIdeal.Frame
import proofs.«130303_g21698174779868_cont_sun_m_729_11_alg».proof.Proof.Gen.KernelIdeal.Skeleton
import proofs.«130303_g21698174779868_cont_sun_m_729_11_alg».proof.Proof.IdealBody
import Idealize.ShloMosaic.PureOps.Ideal
import Idealize.ShloMosaic.Lib.Pipeline.FrameBody
import Idealize.ShloMosaic.Lib.Pipeline.Value
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-! ## The blocks, at their literal types -/

/-- The feature table as staged at point `t` (its one block is the whole table). -/
abbrev xblk (c : Dev nD) (t : Fin cfg0.N) : Vec Ideal S10000x128 .f32 := iblk m c 0 t
/-- The weights as staged at point `t` (one block, the whole matrix). -/
abbrev wblk (c : Dev nD) (t : Fin cfg0.N) : Vec Ideal S128x128 .f32 := iblk m c 2 t
/-- The adjacency rows' staging buffer after the fetch at point `t` into a buffer that held `d`: the block's rows
    inside the array, `d` on the rows past its end (at the last point only). -/
abbrev ablk (c : Dev nD) (t : Fin cfg0.N) (d : Vec Ideal S640x10000 .f32) : Vec Ideal S640x10000 .f32 :=
  (cfg0.win 1).fill (cfg0.grid.coords t) d (iblk m c 1 t)

/-- A filler for the rows past the array's end: nothing reads it. -/
def zeroFill : Vec Ideal S640x10000 .f32 := fun _ => 0

/-- What the scratch holds from the first point on: the feature table times the weights, as the first point
    computes it. -/
def supp (c : Dev nD) : Vec Ideal S10000x128 .bf16 := k0_pay1 (xblk m c t0_0) (wblk m c t0_0)

/-- What the result's staging buffer holds after the body at point `t`: the staged adjacency rows times the scratch. -/
def outAt (c : Dev nD) (t : Fin cfg0.N) : Vec Ideal S640x128 .f32 := k0_pay2 (ablk m c t zeroFill) (supp m c)

/-! ## The scratch, as a memref, and the invariant -/

/-- The scratch operand: a whole scoped buffer of the kernel's own. -/
abbrev scM : Memref sig .tc .vmem S10000x128 .bf16 := Memref.whole cc0_scratch0

/-- The region's invariant with the scratch owned, as a memref, at some contents. -/
theorem PhiA0_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-- The invariant before position `n`: before the first point the scratch holds anything; afterwards the support. -/
def PhiS (c : Dev nD) : ℕ → sProp 𝕄
  | 0 => Pipeline.ΦA spec0 c
  | _ + 1 => iprop(iprop(owns (c : Thread nD τ) scM fullShare (supp m c)) ∗ (∃ r, prngReg c r))

theorem PhiS_zero (c : Dev nD) : PhiS m c 0 = Pipeline.ΦA spec0 c := rfl
theorem PhiS_succ (c : Dev nD) (n : ℕ) :
    PhiS m c (n + 1) = iprop(iprop(owns (c : Thread nD τ) scM fullShare (supp m c)) ∗ (∃ r, prngReg c r)) := rfl
theorem PhiS_pos (c : Dev nD) (n : ℕ) (hn : n ≠ 0) :
    PhiS m c n = iprop(iprop(owns (c : Thread nD τ) scM fullShare (supp m c)) ∗ (∃ r, prngReg c r)) := by
  cases n with
  | zero => exact absurd rfl hn
  | succ n => rfl

/-! ## The proof data -/

/-- The proof data of the one pipeline on core `c`: the arrays as the region finds them; after the body the two
    whole inputs at their blocks, the adjacency rows' buffer at its block (filled out with the filler), the result's
    buffer at `outAt`; the invariant `PhiS`; nothing owed; full shares. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => ablk m c t zeroFill
    | ⟨2, _⟩ => iblk m c 2 t
    | ⟨3, _⟩ => outAt m c t
  Φ t := PhiS m c t.val
  q _ := fullShare
  owed _ := 0

theorem A_eq (c : Dev nD) (w : Fin cfg0.W) : (dats m 0 c).A w = V m c (Pipeline.arrRef spec0 w) := by
  dsimp only [dats]

theorem Phi_castSucc (c : Dev nD) (t : Fin cfg0.N) : (dats m 0 c).Φ t.castSucc = PhiS m c t.val := by
  dsimp only [dats]; simp only [Fin.coe_castSucc]
theorem Phi_succ (c : Dev nD) (t : Fin cfg0.N) : (dats m 0 c).Φ t.succ = PhiS m c (t.val + 1) := by
  dsimp only [dats]; simp only [Fin.val_succ]

theorem after0_0 (c : Dev nD) (t : Fin cfg0.N) : (dats m 0 c).after 0 t = iblk m c 0 t := by dsimp only [dats]
theorem after0_1 (c : Dev nD) (t : Fin cfg0.N) : (dats m 0 c).after 1 t = ablk m c t zeroFill := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = outAt m c t := by dsimp only [dats]

/-! ## What the body finds -/

/-- The two whole inputs: their blocks, fetched at the point or not. -/
theorem before0_0 (c : Dev nD) (t : Fin cfg0.N) (d) : (dats m 0 c).before 0 t d = xblk m c t :=
  before0_0_of m (dats m 0 c) (A_eq m c 0) (after0_0 m c) t d
theorem before0_2 (c : Dev nD) (t : Fin cfg0.N) (d) : (dats m 0 c).before 2 t d = wblk m c t :=
  before0_2_of m (dats m 0 c) (A_eq m c 2) (after0_2 m c) t d
/-- The adjacency rows: just fetched, at every point. -/
theorem before0_1 (c : Dev nD) (t : Fin cfg0.N) (d) : (dats m 0 c).before 1 t d = ablk m c t d := by
  rw [(dats m 0 c).before_fetched 1 t (fetch0_1 t)]
  unfold Dat.fetched Dat.blockOf; rw [A_eq]; rfl
/-- The result's buffer: fresh at every point (the point before wrote it back). -/
theorem before0_3 (c : Dev nD) (t : Fin cfg0.N) (d) : (dats m 0 c).before 3 t d = d :=
  (dats m 0 c).before_out_reset 3 rfl t
    (by by_cases h : t.val = 0
        · exact .inl h
        · exact .inr ⟨h, flush0_3 _⟩) d

end Cert.KernelIdeal.Body

end
-- ==== Proof.LibColumnLayout.lean ====
/-
  A column of row sums, laid along the rows and along the columns of a matrix, read at an index.

  A kernel that sums the rows of an `[a, b]` matrix with `keepdims` holds the sums as a column `[a, 1]`; it then
  either broadcasts that column over `b` columns, or transposes it into a row `[1, a]` and broadcasts the row over
  many rows. The lemmas here read each of those steps at an index given by its coordinates:

  * `multiReduction_add_rows_apply` — the sum over the second axis of `[a, b]`, at row `p`, is `∑ₖ src (p, k)`;
  * `shapeCast_a_a1_apply` — a vector `[a]` cast to the column `[a, 1]` reads, at `(i, u)`, the vector at `i`;
  * `broadcastTo_a1_ab_apply` — a column `[a, 1]` broadcast to `[a, b]` reads, at `(i, j)`, the column at `(i, 0)`;
  * `column_over_columns_apply` / `column_as_row_over_rows_apply` — the two compositions a kernel prints: the
    vector `w` as a column over all columns is `w i` at `(i, j)`, and as a transposed row over all rows is `w j`.

  All are generic in the extents and in the element type; none uses anything of the arithmetic.
-/
import Idealize.ShloMosaic.Lib.Pipeline.Value
import Idealize.ShloMosaic.Lib.ValueIdx
import Idealize.ShloMosaic.Lib.ValueLayout
import Idealize.ShloMosaic.PureOps.Ideal.Laws

namespace Cert.ColumnLayout

open Idealize.ShloMosaic Idealize.ShloMosaic.ValueIdx

variable {α : Type}

/-- The sum over the second axis of an `[a, b]` matrix, read at row `p` at the ideal values: the sum over the `b`
    entries of that row. -/
theorem multiReduction_add_rows_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (funext fun ax => Fin.ext (by
      match ax with
      | ⟨0, _⟩ => rfl
      | ⟨1, _⟩ => rfl)))

/-- A vector `[a]` cast to the column `[a, 1]` reads, at `(i, u)`, the vector at `i`, whatever the unit
    coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, j)`, the column's entry of row `i`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- A vector `w` set as a column and broadcast over `b` columns: at `(i, j)` it is `w i`. -/
theorem column_over_columns_apply {a b : ℕ} (w : (⟨1, ![a]⟩ : Shape).Idx → α)
    (hc : (⟨1, ![a]⟩ : Shape).ShapeCasts ⟨2, ![a, 1]⟩) (hb : (⟨2, ![a, 1]⟩ : Shape).Broadcasts ⟨2, ![a, b]⟩)
    (i : Fin a) (j : Fin b) :
    broadcastTo ⟨2, ![a, b]⟩ (shapeCast ⟨2, ![a, 1]⟩ w hc) hb (ix2 i j) = w (ix1 i) :=
  (broadcastTo_a1_ab_apply _ hb i j).trans (shapeCast_a_a1_apply w hc i 0)

/-- A vector `w` set as a column, transposed into a row, and broadcast over `a` rows: at `(i, j)` it is `w j`. -/
theorem column_as_row_over_rows_apply {a b : ℕ} (w : (⟨1, ![b]⟩ : Shape).Idx → α)
    (hc : (⟨1, ![b]⟩ : Shape).ShapeCasts ⟨2, ![b, 1]⟩) (ht : (⟨2, ![b, 1]⟩ : Shape).Transposes [1, 0] ⟨2, ![1, b]⟩)
    (hb : (⟨2, ![1, b]⟩ : Shape).Broadcasts ⟨2, ![a, b]⟩) (i : Fin a) (j : Fin b) :
    broadcastTo ⟨2, ![a, b]⟩ (transpose ⟨2, ![1, b]⟩ [1, 0] (shapeCast ⟨2, ![b, 1]⟩ w hc) ht) hb (ix2 i j) = w (ix1 j) :=
  (broadcastTo_1b_ab_apply _ hb i j).trans
    ((transpose_ix2_apply _ ht (0 : Fin 1) j).trans (shapeCast_a_a1_apply w hc j 0))

end Cert.ColumnLayout
-- ==== Proof.LibDenseLayer.lean ====
/-
  The dense half of a graph-convolution layer, as plain functions of matrices of extended reals.

  A layer multiplies an `[a, K]` matrix `x` by a `[K, N]` matrix `w` and then either clamps every entry at zero from
  below (`reluLayer`) or normalises every row by the softmax (`softmaxLayer`): the row's entries minus the row's
  maximum, exponentiated, divided by the row's sum of those exponentials. Everything is stated entry by entry, at
  the row `r` and the column `q`, so that it reads the same on a block of rows and on the whole matrix: entry
  `(r, q)` of either layer depends on `x` only through row `r` (`prodRow_congr`).

  Then each operation a vector program or a host program spells these layers with, read at an index at the ideal
  values: a matrix product into a zero accumulator and a `dot_general` as `prodRow` (for dimension numbers that
  contract the second axis of the left operand with the first of the right: `PlainDot`), a row maximum taken by a
  vector reduction or by a host reduction as the fold of `max` over the row, a host row sum as the initial value plus
  the sum over the row; and a vector program's whole row softmax (`vector_softmax_apply`), its column of row maxima and
  its column of row sums laid over the columns by a shape cast and a broadcast.

  All are generic in the extents.
-/
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws
import proofs.«130303_g21698174779868_cont_sun_m_729_11_alg».proof.Proof.LibColumnLayout

noncomputable section

namespace Cert.DenseLayer

open Idealize.ShloMosaic Idealize.ShloMosaic.ValueIdx

/-- A `[p, q]` matrix of extended reals, indexed as the arrays are. -/
abbrev Mat (p q : ℕ) : Type := (⟨2, ![p, q]⟩ : Shape).Idx → EReal

variable {a K N : ℕ}

/-! ## The layers -/

/-- Row `r` of the product `x · w`: in column `q` the sum over `k` of `x (r, k) · w (k, q)`. -/
def prodRow (x : Mat a K) (w : Mat K N) (r : Fin a) : Fin N → EReal :=
  fun q => ∑ k : Fin K, x (ix2 r k) * w (ix2 k q)

/-- A row of the product depends on the left matrix only through that row: two left matrices, of any heights,
    that agree along a row of each give the same row of products. -/
theorem prodRow_congr {a' : ℕ} (x : Mat a K) (x' : Mat a' K) (w : Mat K N) (r : Fin a) (r' : Fin a')
    (h : ∀ k, x (ix2 r k) = x' (ix2 r' k)) : prodRow x w r = prodRow x' w r' :=
  funext fun q => Finset.sum_congr rfl fun k _ => by rw [h k]

/-- The product clamped at zero from below, entry by entry (the zero written as the word a program writes). -/
def reluLayer (x : Mat a K) (w : Mat K N) : Mat a N :=
  fun i => max (prodRow x w (i 0) (i 1)) (Ideal.ofBits .f32 0x00000000#32)

/-- The maximum of a row, taken from `-∞` (the word a program writes) and once more against `-∞`. -/
def rowTop (z : Fin N → EReal) : EReal :=
  max (Ideal.ofBits .f32 0xFF800000#32) (Finset.univ.fold max (Ideal.ofBits .f32 0xFF800000#32) z)

/-- The softmax of a row at column `q`: `exp (z q - top)` over the sum of `exp (z j - top)` along the row. -/
def softmaxRow (z : Fin N → EReal) (q : Fin N) : EReal :=
  Ideal.div (Ideal.exp (z q - rowTop z)) (∑ j : Fin N, Ideal.exp (z j - rowTop z))

/-- The product with every row normalised by the softmax. -/
def softmaxLayer (x : Mat a K) (w : Mat K N) : Mat a N :=
  fun i => softmaxRow (prodRow x w (i 0)) (i 1)

theorem reluLayer_apply (x : Mat a K) (w : Mat K N) (r : Fin a) (q : Fin N) :
    reluLayer x w (ix2 r q) = max (prodRow x w r q) (Ideal.ofBits .f32 0x00000000#32) := rfl

theorem softmaxLayer_apply (x : Mat a K) (w : Mat K N) (r : Fin a) (q : Fin N) :
    softmaxLayer x w (ix2 r q) = softmaxRow (prodRow x w r) q := rfl

/-! ## A matrix product read at an index -/

/-- Dimension numbers of a plain product `[a, K] × [K, N] → [a, N]`: one contracted axis of extent `K`, the left
    operand read at `(row, k)` and the right at `(k, column)`. -/
structure PlainDot (d : DotDims ⟨2, ![a, K]⟩ ⟨2, ![K, N]⟩ ⟨2, ![a, N]⟩) : Prop where
  rank : d.contr.rank = 1
  size : d.contr.size ⟨0, by omega⟩ = K
  lhs0 : ∀ (i : (⟨2, ![a, N]⟩ : Shape).Idx) (q : d.contr.Idx), (d.lhsIdx i q 0).val = (i 0).val
  lhs1 : ∀ (i : (⟨2, ![a, N]⟩ : Shape).Idx) (q : d.contr.Idx), (d.lhsIdx i q 1).val = (q ⟨0, by omega⟩).val
  rhs0 : ∀ (i : (⟨2, ![a, N]⟩ : Shape).Idx) (q : d.contr.Idx), (d.rhsIdx i q 0).val = (q ⟨0, by omega⟩).val
  rhs1 : ∀ (i : (⟨2, ![a, N]⟩ : Shape).Idx) (q : d.contr.Idx), (d.rhsIdx i q 1).val = (i 1).val

/-- The contraction's sum over its own index type is the sum over `k : Fin K` of the row times the column. -/
theorem sum_contr_eq_prodRow {d : DotDims ⟨2, ![a, K]⟩ ⟨2, ![K, N]⟩ ⟨2, ![a, N]⟩} (hd : PlainDot d)
    (x : Mat a K) (w : Mat K N) (i : (⟨2, ![a, N]⟩ : Shape).Idx) :
    ∑ k : d.contr.Idx, x (d.lhsIdx i k) * w (d.rhsIdx i k) = prodRow x w (i 0) (i 1) := by
  unfold prodRow
  rw [← Equiv.sum_comp (contrEquiv1 d K hd.rank hd.size).symm]
  refine Finset.sum_congr rfl fun k _ => ?_
  have hk := contrEquiv1_symm_val d K hd.rank hd.size k
  have el : d.lhsIdx i ((contrEquiv1 d K hd.rank hd.size).symm k) = ix2 (i 0) k := funext fun ax => Fin.ext (by
    match ax with
    | ⟨0, _⟩ => exact hd.lhs0 _ _
    | ⟨1, _⟩ => exact (hd.lhs1 _ _).trans hk)
  have er : d.rhsIdx i ((contrEquiv1 d K hd.rank hd.size).symm k) = ix2 k (i 1) := funext fun ax => Fin.ext (by
    match ax with
    | ⟨0, _⟩ => exact (hd.rhs0 _ _).trans hk
    | ⟨1, _⟩ => exact hd.rhs1 _ _)
  rw [el, er]
  rfl

/-- A vector program's matrix product into the zero accumulator, at the ideal values, is `prodRow` entry by entry,
    whatever the operands' float formats. -/
theorem matmul_zero_apply {φ₁ φ₂ : FTy} {d : DotDims ⟨2, ![a, K]⟩ ⟨2, ![K, N]⟩ ⟨2, ![a, N]⟩} (hd : PlainDot d)
    (prec : Option ContractPrecision) (x : FVec Ideal ⟨2, ![a, K]⟩ φ₁) (w : FVec Ideal ⟨2, ![K, N]⟩ φ₂)
    (i : (⟨2, ![a, N]⟩ : Shape).Idx) :
    FloatOps.matmul d prec x w (constant ⟨2, ![a, N]⟩ .f32 0x00000000#32) i = prodRow x w (i 0) (i 1) :=
  (Ideal.matmul_constant_zero_apply d prec x w i).trans (sum_contr_eq_prodRow hd x w i)

/-- A host program's `dot_general`, at the ideal values, is `prodRow` entry by entry. -/
theorem dotGeneral_apply {φ₁ φ₂ : FTy} {d : DotDims ⟨2, ![a, K]⟩ ⟨2, ![K, N]⟩ ⟨2, ![a, N]⟩} (hd : PlainDot d)
    (prec : Option ContractPrecision) (sched : HostSchedule) (x : FVec Ideal ⟨2, ![a, K]⟩ φ₁)
    (w : FVec Ideal ⟨2, ![K, N]⟩ φ₂) (i : (⟨2, ![a, N]⟩ : Shape).Idx) :
    FloatOps.dotGeneral d prec sched x w i = prodRow x w (i 0) (i 1) :=
  (Ideal.dotGeneral_apply d prec sched x w i).trans (sum_contr_eq_prodRow hd x w i)

/-! ## A row's maximum and a row's sum read at an index -/

/-- Inserting the coordinate `k` on the second axis over the row index `p` gives `(p, k)`. -/
theorem lift_rows {b : ℕ} (h : (⟨2, ![a, b]⟩ : Shape).Reduces [1] ⟨1, ![a]⟩) (p : Fin a) (k : Fin b) :
    h.lift (ix1 p) k = ix2 p k :=
  funext fun ax => Fin.ext (by
    match ax with
    | ⟨0, _⟩ => rfl
    | ⟨1, _⟩ => rfl)

/-- A vector program's maximum over the second axis of `[a, b]`, at row `p` at the ideal values: the fold of `max`
    from the accumulator's value over the row's `b` entries. -/
theorem multiReduction_max_rows_apply {b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (p : Fin a) :
    multiReduction .maximumf [1] ⟨1, ![a]⟩ src acc h hφ hacc (ix1 p)
      = (Finset.univ : Finset (Fin b)).fold max (Ideal.ofBits φ acc) (fun k => src (ix2 p k)) :=
  (Ideal.multiReduction_maximumf_single src acc h hφ hacc (ix1 p)).trans
    (congrArg (fun f : Fin b → EReal => (Finset.univ : Finset (Fin b)).fold max (Ideal.ofBits φ acc) f)
      (funext fun k => congrArg src (lift_rows h p k)))

/-- A host program's maximum over the second axis of `[a, b]`, at row `p` at the ideal values: the fold of `max`
    from the initial value over the row's `b` entries. -/
theorem hostReduce_max_rows_apply {b : ℕ} {φ : FTy} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduce (FloatOps.maximumf (F := Ideal) (φ := φ)) x init h' hu (ix1 p)
      = (Finset.univ : Finset (Fin b)).fold max (init (Shape.Idx.first hu)) (fun k => x (ix2 p k)) :=
  (Host.reduce_eq_fold_single (FloatOps.maximumf (F := Ideal) (φ := φ)) x init h' h hu (ix1 p)).trans
    (congrArg (fun f : Fin b → EReal => (Finset.univ : Finset (Fin b)).fold max (init (Shape.Idx.first hu)) f)
      (funext fun k => congrArg x (lift_rows h p k)))

/-! ## A vector program's row softmax read at an index -/

section VectorSoftmax

variable {b : ℕ} (z : FVec Ideal ⟨2, ![a, b]⟩ .f32)
  (hr : (⟨2, ![a, b]⟩ : Shape).Reduces [1] ⟨1, ![a]⟩) (hc : (⟨1, ![a]⟩ : Shape).ShapeCasts ⟨2, ![a, 1]⟩)
  (hb : (⟨2, ![a, 1]⟩ : Shape).Broadcasts ⟨2, ![a, b]⟩) (hφ : FKind.Formats .f32)
  (hmax : (0xFF800000#32 : BitVec 32) = FKind.maximumf.neutral .f32 hφ)
  (hadd : (0x00000000#32 : BitVec 32) = FKind.add.neutral .f32 hφ)

/-- The row maxima of `z` as a vector program takes them — the reduction from `-∞`, once more against a splat of
    `-∞` — set as a column and laid over the `b` columns. -/
def vecTop : FVec Ideal ⟨2, ![a, b]⟩ .f32 :=
  broadcastTo ⟨2, ![a, b]⟩
    (shapeCast ⟨2, ![a, 1]⟩
      (maximumf (broadcast ⟨1, ![a]⟩ (Scalar.ofBits (F := Ideal) .f32 0xFF800000#32))
        (multiReduction .maximumf [1] ⟨1, ![a]⟩ z 0xFF800000#32 hr hφ hmax)) hc) hb

/-- At `(p, q)` it is the maximum of row `p`, whatever the column. -/
theorem vecTop_apply (p : Fin a) (q : Fin b) :
    vecTop z hr hc hb hφ hmax (ix2 p q) = rowTop (fun k => z (ix2 p k)) :=
  (Cert.ColumnLayout.column_over_columns_apply _ hc hb p q).trans
    (congrArg (max (Ideal.ofBits .f32 0xFF800000#32)) (multiReduction_max_rows_apply z _ hr hφ hmax p))

/-- The whole row softmax of a vector program — the entries minus the laid-out row maxima, exponentiated, divided by
    their row sums laid out the same way — is `softmaxRow` of the row, entry by entry. -/
theorem vector_softmax_apply (p : Fin a) (q : Fin b) :
    divf (exp (subf z (vecTop z hr hc hb hφ hmax)))
        (broadcastTo ⟨2, ![a, b]⟩
          (shapeCast ⟨2, ![a, 1]⟩
            (multiReduction .add [1] ⟨1, ![a]⟩ (exp (subf z (vecTop z hr hc hb hφ hmax))) 0x00000000#32 hr hφ hadd) hc) hb)
        (ix2 p q)
      = softmaxRow (fun k => z (ix2 p k)) q := by
  have hE : ∀ k : Fin b, exp (subf z (vecTop z hr hc hb hφ hmax)) (ix2 p k)
      = Ideal.exp (z (ix2 p k) - rowTop (fun k => z (ix2 p k))) := fun k => by
    show Ideal.exp (z (ix2 p k) - vecTop z hr hc hb hφ hmax (ix2 p k)) = _
    rw [vecTop_apply]
  show Ideal.div (exp (subf z (vecTop z hr hc hb hφ hmax)) (ix2 p q)) _ = _
  rw [hE q, Cert.ColumnLayout.column_over_columns_apply, Cert.ColumnLayout.multiReduction_add_rows_apply]
  unfold softmaxRow
  exact congrArg (Ideal.div _) (Finset.sum_congr rfl fun k _ => hE k)

end VectorSoftmax

end Cert.DenseLayer

end
-- ==== Proof.LibPlainDot.lean ====
/-
  Dimension numbers of a plain matrix product, recognised from their axis lists.

  A contraction's dimension numbers name, for each operand, which axes are batch axes, which are carried to the
  result and which are summed over. For a product `[a, K] × [K, N] → [a, N]` with no batch axis, the left operand's
  second axis summed against the right operand's first, and the two remaining axes carried in order, the left operand
  is read at `(row, k)` and the right at `(k, column)`: the record is a `PlainDot`, so that the product at an index is
  the row-times-column sum `prodRow`. The lemma is generic in the extents and takes the six axis lists as equations,
  which hold by `rfl` of any record written with those lists.
-/
import Idealize.ShloMosaic.PureOps.Dims
import proofs.«130303_g21698174779868_cont_sun_m_729_11_alg».proof.Proof.LibDenseLayer

noncomputable section

namespace Cert.DenseLayer

open Idealize.ShloMosaic Idealize.ShloMosaic.ValueIdx

variable {a K N : ℕ}

/-- Two positions of one index that are equal as numbers hold the same coordinate. -/
theorem coord_val_congr {s : Shape} (i : s.Idx) (p q : ℕ) (hp : p < s.rank) (hq : q < s.rank) (h : p = q) :
    (i ⟨p, hp⟩).val = (i ⟨q, hq⟩).val := by subst h; rfl

/-- Dimension numbers with no batch axis that sum the left operand's axis 1 against the right operand's axis 0 and
    carry the left operand's axis 0 and then the right operand's axis 1 are those of a plain product. -/
theorem plainDot_of_axes (d : DotDims ⟨2, ![a, K]⟩ ⟨2, ![K, N]⟩ ⟨2, ![a, N]⟩)
    (hlc : d.lhsContracting = [1]) (hrc : d.rhsContracting = [0])
    (hln : d.lhsNonContracting = [0]) (hrn : d.rhsNonContracting = [1])
    (hlb : d.lhsBatch = []) (hrb : d.rhsBatch = []) : PlainDot d where
  rank := by rw [d.rank_contr, hlc]; rfl
  size := by
    have h := d.size_contr 0 (by rw [hlc]; exact Nat.one_pos)
    simp only [hlc, List.getElem_cons_zero] at h
    exact h
  lhs0 := fun i q => by
    have hb : (0 : Fin (⟨2, ![a, K]⟩ : Shape).rank) ∉ d.lhsBatch := by rw [hlb]; exact List.not_mem_nil
    have hn : (0 : Fin (⟨2, ![a, K]⟩ : Shape).rank) ∈ d.lhsNonContracting := by rw [hln]; exact List.mem_singleton.mpr rfl
    unfold DotDims.lhsIdx
    rw [dif_neg hb, dif_pos hn]
    simp only [Fin.val_cast]
    exact coord_val_congr i _ _ _ _ (by simp [hlb, hln])
  lhs1 := fun i q => d.lhsIdx_val_of_single hlc i q
  rhs0 := fun i q => d.rhsIdx_val_of_single hrc i q
  rhs1 := fun i q => by
    have hb : (1 : Fin (⟨2, ![K, N]⟩ : Shape).rank) ∉ d.rhsBatch := by rw [hrb]; exact List.not_mem_nil
    have hn : (1 : Fin (⟨2, ![K, N]⟩ : Shape).rank) ∈ d.rhsNonContracting := by rw [hrn]; exact List.mem_singleton.mpr rfl
    unfold DotDims.rhsIdx
    rw [dif_neg hb, dif_pos hn]
    simp only [Fin.val_cast]
    exact coord_val_congr i _ _ _ _ (by simp [hlb, hln, hrn])

end Cert.DenseLayer

end
-- ==== Proof.LibAdjacencyProduct.lean ====
/-
  A graph-convolution layer without bias or activation, as plain functions of matrices of extended reals:
  the feature table `X` is first multiplied by the weights `W` (the support, `X · W`), and the adjacency matrix `A`
  is then multiplied by the support: entry `(r, q)` of the result is the sum over the nodes `k` of
  `A (r, k) · (X · W) (k, q)`, and entry `(k, q)` of the support is the sum over the input features `j` of
  `X (k, j) · W (j, q)`.

  Row `r` of the result depends on `A` only through its row `r`: a block of consecutive rows of `A`, multiplied by
  the whole support, is the same block of rows of the result (`aggregate_block`). All are generic in the extents.
-/
import Idealize.ShloMosaic.Lib.ValueIdx
import proofs.«130303_g21698174779868_cont_sun_m_729_11_alg».proof.Proof.LibDenseLayer

noncomputable section

namespace Cert.AdjacencyProduct

open Idealize.ShloMosaic Idealize.ShloMosaic.ValueIdx Cert.DenseLayer

variable {n d e p : ℕ}

/-- The support `X · W`: entry `(k, q)` is the sum over `j` of `X (k, j) · W (j, q)`. -/
def support (X : Mat n d) (W : Mat d e) : Mat n e := fun j => prodRow X W (j 0) (j 1)

/-- The layer `A · (X · W)`: entry `(r, q)` is the sum over `k` of `A (r, k) · support (k, q)`. -/
def aggregate (X : Mat n d) (A : Mat p n) (W : Mat d e) : Mat p e := fun i => prodRow A (support X W) (i 0) (i 1)

theorem support_apply (X : Mat n d) (W : Mat d e) (k : Fin n) (q : Fin e) :
    support X W (ix2 k q) = prodRow X W k q := rfl

theorem aggregate_apply (X : Mat n d) (A : Mat p n) (W : Mat d e) (r : Fin p) (q : Fin e) :
    aggregate X A W (ix2 r q) = prodRow A (support X W) r q := rfl

/-- A block of `b` rows whose row `r` is row `r'` of `A`, multiplied by the support, gives at `(r, q)` the layer's
    entry `(r', q)`. -/
theorem aggregate_block {b : ℕ} (X : Mat n d) (A : Mat p n) (W : Mat d e) (B : Mat b n) (r : Fin b) (r' : Fin p)
    (h : ∀ k, B (ix2 r k) = A (ix2 r' k)) (q : Fin e) :
    prodRow B (support X W) r q = aggregate X A W (ix2 r' q) :=
  congrFun (prodRow_congr B A (support X W) r r' h) q

end Cert.AdjacencyProduct

end
-- ==== Proof.IdealPayload.lean ====
/-
  What the idealized kernel's two stores hold, at the ideal values, as plain matrix products.

  The scratch receives `X · W` (the product into a zero accumulator; narrowing it to the scratch's float format and
  the shape cast to the same shape are the identity on extended reals). The output block receives the block of
  adjacency rows (narrowed, again the identity) times whatever the scratch holds, row by row.
-/
import proofs.«130303_g21698174779868_cont_sun_m_729_11_alg».proof.Proof.Gen.KernelIdeal.Skeleton
import proofs.«130303_g21698174779868_cont_sun_m_729_11_alg».proof.Proof.LibPlainDot
import proofs.«130303_g21698174779868_cont_sun_m_729_11_alg».proof.Proof.LibAdjacencyProduct
import Idealize.ShloMosaic.Lib.Pipeline.Value
import Idealize.ShloMosaic.PureOps.Ideal.Laws

noncomputable section

namespace Cert.KernelIdeal.Payload

open Cert.KernelIdeal Cert.KernelIdeal.Gen
open Idealize.ShloMosaic Idealize.ShloMosaic.ValueIdx Cert.DenseLayer Cert.AdjacencyProduct

/-- The scratch's payload is the support `X · W`. -/
theorem pay1_eq (x0 : Vec Ideal S10000x128 .f32) (x2 : Vec Ideal S128x128 .f32) :
    k0_pay1 (F := Ideal) x0 x2 = support x0 x2 := by
  funext j
  unfold k0_pay1
  rw [shapeCast_self]
  show FloatOps.truncf (F := Ideal) .bf16 _ _ = _
  rw [Ideal.truncf_def]
  exact matmul_zero_apply (plainDot_of_axes _ rfl rfl rfl rfl rfl rfl) none x0 x2 j

/-- The output block's payload at `(r, q)` is row `r` of the loaded block times column `q` of the scratch. -/
theorem pay2_apply (x1 : Vec Ideal S640x10000 .f32) (s : Vec Ideal S10000x128 .bf16) (j : S640x128.Idx) :
    k0_pay2 (F := Ideal) x1 s j = prodRow x1 s (j 0) (j 1) := by
  unfold k0_pay2
  have e : (truncf .bf16 x1 bitsLt_bf16_f32 : FVec Ideal S640x10000 .bf16) = x1 := funext fun i => rfl
  rw [e]
  exact matmul_zero_apply (plainDot_of_axes _ rfl rfl rfl rfl rfl rfl) none x1 s j

end Cert.KernelIdeal.Payload

end
-- ==== Proof.IdealFrame.lean ====
/-
  The idealized kernel's body obligation and its run.

  At the first point the body finds the scratch at anything and leaves it at the support; at every later point it
  finds the support there and leaves it. At every point it leaves the result's buffer at the staged adjacency rows
  times the support; the rows of that product inside the array do not depend on what fills the staged block past the
  array's end, because a row of a matrix product reads the left factor along that row only.
-/
import proofs.«130303_g21698174779868_cont_sun_m_729_11_alg».proof.Proof.Gen.KernelIdeal.Frame
import proofs.«130303_g21698174779868_cont_sun_m_729_11_alg».proof.Proof.Gen.KernelIdeal.Skeleton
import proofs.«130303_g21698174779868_cont_sun_m_729_11_alg».proof.Proof.IdealBody
import proofs.«130303_g21698174779868_cont_sun_m_729_11_alg».proof.Proof.IdealData
import proofs.«130303_g21698174779868_cont_sun_m_729_11_alg».proof.Proof.IdealPayload
import Idealize.ShloMosaic.PureOps.Ideal
import Idealize.ShloMosaic.Lib.ValueIdx
import Idealize.ShloMosaic.Lib.Pipeline.FrameBody
import Idealize.ShloMosaic.Lib.Pipeline.Value
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

open Idealize.ShloMosaic.ValueIdx Cert.DenseLayer Cert.KernelIdeal.Payload

/-! ## The cut of the last block, decided over the grid -/

/-- The adjacency rows' block and the result's block are cut to the same number of rows at every point, and the
    adjacency rows' block keeps all its 10000 columns. -/
theorem xsize_facts : ∀ t : Fin cfg0.N, win0_1.xsize (grid0.coords t) 0 = win0_3.xsize (grid0.coords t) 0
      ∧ win0_1.xsize (grid0.coords t) 1 = 10000 :=
  (by decide +kernel : ∀ t : Fin grid0.N, win0_1.xsize (grid0.coords t) 0 = win0_3.xsize (grid0.coords t) 0
      ∧ win0_1.xsize (grid0.coords t) 1 = 10000)

/-- On a row inside the cut the staged adjacency block does not depend on what filled the buffer before the fetch. -/
theorem ablk_row (c : Dev nD) (t : Fin cfg0.N) (d d' : Vec Ideal S640x10000 .f32) (r : Fin 640)
    (hr : r.val < win0_3.xsize (grid0.coords t) 0) (k : Fin 10000) :
    ablk m c t d (ix2 r k) = ablk m c t d' (ix2 r k) := by
  have hm : (cfg0.win 1).moved (cfg0.grid.coords t) (ix2 r k) = true :=
    ((cfg0.win 1).moved_iff _ _).mpr fun a => by
      match a with
      | ⟨0, _⟩ => exact lt_of_lt_of_eq hr (xsize_facts t).1.symm
      | ⟨1, _⟩ => exact lt_of_lt_of_eq k.isLt (xsize_facts t).2.symm
  unfold ablk Window.fill
  rw [dif_pos hm, dif_pos hm]

/-- So the rows of the product that are written back do not depend on it either. -/
theorem out_cut_congr (c : Dev nD) (t : Fin cfg0.N) (d : Vec Ideal S640x10000 .f32) :
    (cfg0.win 3).cut (cfg0.grid.coords t) (k0_pay2 (ablk m c t d) (supp m c))
      = (cfg0.win 3).cut (cfg0.grid.coords t) (outAt m c t) := by
  funext j
  show k0_pay2 (ablk m c t d) (supp m c) ((cfg0.win 3).xinj _ j) = k0_pay2 (ablk m c t zeroFill) (supp m c) ((cfg0.win 3).xinj _ j)
  rw [pay2_apply, pay2_apply]
  exact congrFun (prodRow_congr (ablk m c t d) (ablk m c t zeroFill) (supp m c) _ _
    (fun k => ablk_row m c t d zeroFill _ (j 0).isLt k)) _

/-! ## The body obligation, at a generic point -/

abbrev ms0 (t : Fin cfg0.N) : Memref sig .tc .vmem S10000x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S640x10000 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S128x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S640x128 .f32 := win0_3.stage (cfg0.slots t 3)
abbrev hs3 (t : Fin cfg0.N) : (ms3 t).IsWhole := hstage0_3 ((cfg0.slots t 3).cast nbuf0_3)

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

/-- and what it returns: the two cut windows stated on the rows inside the array only. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ (∃ d, owns (c : Thread nD τ) (ms1 t) fullShare ((cfg0.win 1).fill (cfg0.grid.coords t) d ((cfg0.win 1).cut (cfg0.grid.coords t) ((dats m 0 c).after 1 t))))
    ∗ owns (c : Thread nD τ) (ms2 t) fullShare ((dats m 0 c).after 2 t)
    ∗ (∃ d, owns (c : Thread nD τ) (ms3 t) fullShare ((cfg0.win 3).fill (cfg0.grid.coords t) d ((cfg0.win 3).cut (cfg0.grid.coords t) ((dats m 0 c).after 3 t)))))

set_option maxHeartbeats 1600000 in
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, after0_0, after0_1, after0_2, after0_3]
  rw [show (dats m 0 c).owesAt () t.succ = (dats m 0 c).owesAt () t.castSucc from rfl, Phi_castSucc, Phi_succ, PhiS_succ]
  have hcut1 : (cfg0.win 1).cut (cfg0.grid.coords t) (ablk m c t zeroFill) = iblk m c 1 t := (cfg0.win 1).cut_fill _ _ _
  rw [hcut1]
  by_cases h0 : t.val = 0
  · have hc : firstPoint (grid0.coords t) := (firstPoint_iff t).mpr h0
    have hs : supp m c = k0_pay1 (xblk m c t) (wblk m c t) := by
      have ht : t = t0_0 := Fin.ext h0
      rw [ht]; rfl
    rw [h0, PhiS_zero, PhiA0_eq]
    iintro ⟨⟨⟨%s, HS⟩, Hg⟩, Ho, ⟨%d0, H0⟩, ⟨%d1, H1⟩, ⟨%d2, H2⟩, ⟨%d3, H3⟩⟩
    iapply (run_first (F := Ideal) c (grid0.coords t) hc (ms0 t) (hs0 t) (ms1 t) (hs1 t) (ms2 t) (hs2 t) (ms3 t) (hs3 t) scM (Memref.isWhole_whole _)
      (xblk m c t) (ablk m c t d1) (wblk m c t) d3 s Set.univ _)
    isplitl [H0]; · iexact H0
    isplitl [H1]; · iexact H1
    isplitl [H2]; · iexact H2
    isplitl [H3]; · iexact H3
    isplitl [HS]; · iexact HS
    iintro ⟨H0, H1, H2, H3, HS⟩
    isplitl [HS Hg]
    · isplitl [HS]
      · rw [hs]; iexact HS
      iexact Hg
    isplitl [Ho]; · iexact Ho
    isplitl [H0]; · iexact H0
    isplitl [H1]; · iexists d1; iexact H1
    isplitl [H2]; · iexact H2
    iexists (k0_pay2 (ablk m c t d1) (supp m c))
    rw [(cfg0.win 3).fill_congr_cut _ (out_cut_congr m c t d1), hs]
    iexact H3
  · have hc : ¬firstPoint (grid0.coords t) := fun h => h0 ((firstPoint_iff t).mp h)
    rw [PhiS_pos m c _ h0]
    iintro ⟨⟨HS, Hg⟩, Ho, ⟨%d0, H0⟩, ⟨%d1, H1⟩, ⟨%d2, H2⟩, ⟨%d3, H3⟩⟩
    iapply (run_rest (F := Ideal) c (grid0.coords t) hc (ms0 t) (hs0 t) (ms1 t) (hs1 t) (ms2 t) (hs2 t) (ms3 t) (hs3 t) scM (Memref.isWhole_whole _)
      (xblk m c t) (ablk m c t d1) (wblk m c t) d3 (supp m c) Set.univ _)
    isplitl [H0]; · iexact H0
    isplitl [H1]; · iexact H1
    isplitl [H2]; · iexact H2
    isplitl [H3]; · iexact H3
    isplitl [HS]; · iexact HS
    iintro ⟨H0, H1, H2, H3, HS⟩
    isplitl [HS Hg]
    · isplitl [HS]; · iexact HS
      iexact Hg
    isplitl [Ho]; · iexact Ho
    isplitl [H0]; · iexact H0
    isplitl [H1]; · iexists d1; iexact H1
    isplitl [H2]; · iexact H2
    iexists (k0_pay2 (ablk m c t d1) (supp m c))
    rw [(cfg0.win 3).fill_congr_cut _ (out_cut_congr m c t d1)]
    iexact H3

/-- The library's body obligation, at every point. -/
theorem body_obligation (c : Dev nD) : BodyObligationLoose (dats m 0 c) (defs₀ (F := Ideal)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 from rfl, PhiS_zero]

/-- After the last point the invariant gives it back: the scratch's contents are forgotten. -/
theorem hout (c : Dev nD) : (dats m 0 c).Φ (Fin.last cfg0.N) ⊢ Pipeline.ΦA spec0 c := by
  rw [show (dats m 0 c).Φ (Fin.last cfg0.N) = PhiS m c cfg0.N from rfl,
    PhiS_pos m c _ (by have : cfg0.N = 16 := N_0; omega), PhiA0_eq]
  iintro ⟨HS, Hg⟩
  isplitl [HS]
  · iexists _; iexact HS
  iexact Hg

/-! ## The run -/

set_option backward.isDefEq.respectTransparency.types false in
/-- Every weakly fair execution of the idealized kernel terminates, every array of the pipeline at what the library
    computes from the proof data. -/
theorem run_main : θ_run defs (onTc (τ := τ) (main (F := Ideal))) (s₀ m ρ) (Pipeline.FramePost cfgs (dats m) 0 (V m)) :=
  Pipeline.θ_run_frame_track cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hin := hin m) (hout := hout m)

end Cert.KernelIdeal.Body

end
-- ==== Proof.IdealValue.lean ====
/-
  What the idealized kernel's result array holds after the run: the layer `A · (X · W)` of the three arguments.

  At point `t` the pipeline writes back the rows of the result's staging buffer that lie inside the array: all 640 at
  the points 0 to 14, the first 400 at point 15, whose block overhangs the 10000 rows. Row `r` of that buffer is row
  `r` of the staged adjacency rows times the scratch, the scratch holds `X · W` (the one block of `X` and the one block
  of `W` are the arrays themselves, their block index being zero), and row `r` of the staged adjacency block, for `r`
  inside the cut, is row `640 · t + r` of `A`. So the rows written back at point `t` are the rows `640 · t + r` of the
  layer: its block `t`. Row `r'` of the array lies in block `r' / 640`, so the sixteen cut blocks cover the array and
  it ends holding the layer.
-/
import proofs.«130303_g21698174779868_cont_sun_m_729_11_alg».proof.Proof.Gen.KernelIdeal.Frame
import proofs.«130303_g21698174779868_cont_sun_m_729_11_alg».proof.Proof.Gen.KernelIdeal.Skeleton
import proofs.«130303_g21698174779868_cont_sun_m_729_11_alg».proof.Proof.IdealData
import proofs.«130303_g21698174779868_cont_sun_m_729_11_alg».proof.Proof.IdealPayload
import proofs.«130303_g21698174779868_cont_sun_m_729_11_alg».proof.Proof.LibAdjacencyProduct
import Idealize.ShloMosaic.PureOps.Ideal
import Idealize.ShloMosaic.Lib.Pipeline.FrameBody
import Idealize.ShloMosaic.Lib.Pipeline.Value
import Idealize.ShloMosaic.Lib.ValueIdx
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.ValueIdx Cert.DenseLayer Cert.AdjacencyProduct

local notation "𝕄" => MT nD τ sig Unit (Elt Ideal) ℕ (UR sig nD τ) ℕ

variable (m : (ℓ : Loc nD τ sig) → Buf (Elt Ideal) ℓ) (ρ : Dev nD → PrngReg)

/-! ## The layer -/

/-- The layer A · (X · W) of the three arguments' launch contents on core c. -/
def layer (c : Dev nD) : Buf (Elt Ideal) ((c : Thread nD τ).loc main_v0) :=
  Cert.AdjacencyProduct.aggregate (m ((c : Thread nD τ).loc main_arg0)) (m ((c : Thread nD τ).loc main_arg1)) (m ((c : Thread nD τ).loc main_arg2))

/-! ## The index maps and the cuts, over the grid -/

/-- At point `t` the result's and the adjacency rows' block index is `(t, 0)` and the two whole inputs' is `(0, 0)`;
    the two moving windows are cut alike on the rows, to what of the 640 rows from `640 · t` lies below 10000, and
    not at all on the columns. -/
theorem grid_facts : ∀ t : Fin cfg0.N,
    win0_3.index t 0 = t.val ∧ win0_3.index t 1 = 0
    ∧ win0_1.index t 0 = t.val ∧ win0_1.index t 1 = 0
    ∧ win0_0.index t 0 = 0 ∧ win0_0.index t 1 = 0
    ∧ win0_2.index t 0 = 0 ∧ win0_2.index t 1 = 0
    ∧ win0_3.xsize (grid0.coords t) 0 = win0_1.xsize (grid0.coords t) 0
    ∧ win0_1.xsize (grid0.coords t) 1 = 10000
    ∧ win0_3.xsize (grid0.coords t) 1 = 128
    ∧ t.val * 640 + win0_3.xsize (grid0.coords t) 0 = min 10000 (t.val * 640 + 640) :=
  (by decide +kernel : ∀ t : Fin grid0.N, _)

/-! ## The two whole inputs and the scratch -/

/-- The feature table's one block is the table: its block index is `(0, 0)`, so element `j` of the block sits at
    `j` in the array. -/
theorem xblk_eq (c : Dev nD) (t : Fin cfg0.N) : xblk m c t = m ((c : Thread nD τ).loc main_arg0) := by
  obtain ⟨-, -, -, -, e0, e1, -⟩ := grid_facts t
  funext j
  show iblk m c 0 t j = _
  unfold iblk
  rw [View.read_apply]
  show V m c main_arg0 _ = m ((c : Thread nD τ).loc main_arg0) j
  unfold V
  congr 1
  funext a
  apply Fin.ext
  match a with
  | ⟨0, _⟩ => show win0_0.index t 0 * 10000 + 1 * (j 0).val = (j 0).val; rw [e0]; omega
  | ⟨1, _⟩ => show win0_0.index t 1 * 128 + 1 * (j 1).val = (j 1).val; rw [e1]; omega

/-- The weights' one block is the matrix, likewise. -/
theorem wblk_eq (c : Dev nD) (t : Fin cfg0.N) : wblk m c t = m ((c : Thread nD τ).loc main_arg2) := by
  obtain ⟨-, -, -, -, -, -, e0, e1, -⟩ := grid_facts t
  funext j
  show iblk m c 2 t j = _
  unfold iblk
  rw [View.read_apply]
  show V m c main_arg2 _ = m ((c : Thread nD τ).loc main_arg2) j
  unfold V
  congr 1
  funext a
  apply Fin.ext
  match a with
  | ⟨0, _⟩ => show win0_2.index t 0 * 128 + 1 * (j 0).val = (j 0).val; rw [e0]; omega
  | ⟨1, _⟩ => show win0_2.index t 1 * 128 + 1 * (j 1).val = (j 1).val; rw [e1]; omega

/-- So the scratch holds the support `X · W` of the arguments. -/
theorem supp_eq (c : Dev nD) :
    supp m c = support (m ((c : Thread nD τ).loc main_arg0)) (m ((c : Thread nD τ).loc main_arg2)) := by
  unfold supp
  rw [Cert.KernelIdeal.Payload.pay1_eq, xblk_eq, wblk_eq]

/-! ## The staged adjacency rows -/

/-- Row `r` of the adjacency rows' staging buffer at point `t`, for `r` inside the cut, is row `640 · t + r` of
    `A`, whatever fills the buffer past the array's end. -/
theorem ablk_apply (c : Dev nD) (t : Fin cfg0.N) (d : Vec Ideal S640x10000 .f32) (r : Fin 640) (k : Fin 10000)
    (r' : Fin 10000) (hr : r.val < win0_1.xsize (grid0.coords t) 0) (hr' : r'.val = t.val * 640 + r.val) :
    ablk m c t d (ix2 r k) = m ((c : Thread nD τ).loc main_arg1) (ix2 r' k) := by
  obtain ⟨-, -, e0, e1, -, -, -, -, -, x1, -⟩ := grid_facts t
  have hm : win0_1.moved (grid0.coords t) (ix2 r k) = true := (win0_1.moved_iff _ _).mpr fun a => by
    match a with
    | ⟨0, _⟩ => exact hr
    | ⟨1, _⟩ => show k.val < win0_1.xsize (grid0.coords t) 1; rw [x1]; exact k.isLt
  show (cfg0.win 1).fill (cfg0.grid.coords t) d (iblk m c 1 t) (ix2 r k) = _
  unfold Window.fill
  rw [dif_pos hm]
  unfold iblk
  rw [View.read_apply]
  show V m c main_arg1 _ = m ((c : Thread nD τ).loc main_arg1) (ix2 r' k)
  unfold V
  congr 1
  funext a
  apply Fin.ext
  match a with
  | ⟨0, _⟩ => show win0_1.index t 0 * 640 + 1 * r.val = r'.val; rw [e0, hr']; omega
  | ⟨1, _⟩ => show win0_1.index t 1 * 10000 + 1 * k.val = k.val; rw [e1]; omega

/-! ## What a point writes back -/

/-- Entry `(r, q)` of the result's staging buffer after the body at point `t`, for `r` inside the cut, is the
    layer's entry `(640 · t + r, q)`: row `r` of the staged adjacency rows is row `640 · t + r` of `A` and the scratch
    is the support. -/
theorem outAt_apply (c : Dev nD) (t : Fin cfg0.N) (r : Fin 640) (q : Fin 128) (r' : Fin 10000)
    (hr : r.val < win0_1.xsize (grid0.coords t) 0) (hr' : r'.val = t.val * 640 + r.val) :
    outAt m c t (ix2 r q) = layer m c (ix2 r' q) := by
  unfold outAt
  rw [Cert.KernelIdeal.Payload.pay2_apply, supp_eq]
  exact aggregate_block _ _ _ (ablk m c t zeroFill) r r' (fun k => ablk_apply m c t zeroFill r k r' hr hr') q

/-- WHAT POINT `t` WRITES BACK — the rows of the result's staging buffer inside the cut — is block `t` of the layer:
    element `(r, q)` of the cut block sits at `(640 · t + r, q)` in the array. -/
theorem flushed_eq (c : Dev nD) (t : Fin cfg0.N) :
    (dats m 0 c).flushed 3 t = ((cfg0.win 3).blk t).view.read (Elt Ideal) (layer m c) := by
  obtain ⟨i0, i1, -, -, -, -, -, -, xe, -, x1, xm⟩ := grid_facts t
  show (cfg0.win 3).cut (grid0.coords t) ((dats m 0 c).after 3 t) = _
  rw [after0_3]
  funext j
  have h0 : (j 0).val < win0_3.xsize (grid0.coords t) 0 := (j 0).isLt
  have h1 : (j 1).val < win0_3.xsize (grid0.coords t) 1 := (j 1).isLt
  have h0' : (j 0).val < 640 := by omega
  have h1' : (j 1).val < 128 := by omega
  have hr' : t.val * 640 + (j 0).val < 10000 := by omega
  have el : win0_3.xinj (grid0.coords t) j = ix2 (⟨(j 0).val, h0'⟩ : Fin 640) (⟨(j 1).val, h1'⟩ : Fin 128) := by
    funext a
    match a with
    | ⟨0, _⟩ => rfl
    | ⟨1, _⟩ => rfl
  have er : ((cfg0.win 3).blk t).view.emb j
      = ix2 (⟨t.val * 640 + (j 0).val, hr'⟩ : Fin 10000) (⟨(j 1).val, h1'⟩ : Fin 128) := by
    funext a
    apply Fin.ext
    match a with
    | ⟨0, _⟩ => show win0_3.index t 0 * 640 + 1 * (j 0).val = t.val * 640 + (j 0).val; rw [i0]; omega
    | ⟨1, _⟩ => show win0_3.index t 1 * 128 + 1 * (j 1).val = (j 1).val; rw [i1]; omega
  rw [View.read_apply]
  show outAt m c t (win0_3.xinj (grid0.coords t) j) = layer m c (((cfg0.win 3).blk t).view.emb j)
  rw [el, er]
  exact outAt_apply m c t _ _ _ (by rw [← xe]; exact h0) rfl

/-! ## The blocks cover the array -/

/-- Row `r'` of the array is in the block of point `r' / 640`: the sixteen cut blocks cover the 10000 rows. -/
theorem covered (i : S10000x128.Idx) :
    ∃ t : Fin cfg0.N, (cfg0.win 3).flush t = true ∧ i ∈ ((cfg0.win 3).blk t).view.set := by
  have hi0 : (i 0).val < 10000 := (i 0).isLt
  have hi1 : (i 1).val < 128 := (i 1).isLt
  have hN : cfg0.N = 16 := N_0
  obtain ⟨t, ht⟩ : ∃ t : Fin cfg0.N, t.val = (i 0).val / 640 := ⟨⟨(i 0).val / 640, by omega⟩, rfl⟩
  obtain ⟨i0, i1, -, -, -, -, -, -, -, -, x1, xm⟩ := grid_facts t
  refine ⟨t, flush0_3 t, ?_⟩
  show i ∈ ((View.whole main_v0).slice (win0_3.rect t)).set
  rw [View.set_slice_whole, Rect.mem_set_unit]
  intro a
  match a with
  | ⟨0, _⟩ =>
    show win0_3.index t 0 * 640 ≤ (i 0).val ∧ (i 0).val < win0_3.index t 0 * 640 + win0_3.xsize (grid0.coords t) 0
    rw [i0]; omega
  | ⟨1, _⟩ =>
    show win0_3.index t 1 * 128 ≤ (i 1).val ∧ (i 1).val < win0_3.index t 1 * 128 + win0_3.xsize (grid0.coords t) 1
    rw [i1, x1]; omega

/-! ## The result array after the run -/

/-- The result array ends holding the layer `A · (X · W)` of the arguments. -/
theorem final3 (c : Dev nD) : (dats m 0 c).arrAt 3 cfg0.N = layer m c :=
  (dats m 0 c).arrAt_eq_of_cover 3 (layer m c) (fun t _ => flushed_eq m c t) covered

end Cert.KernelIdeal.Body

end
-- ==== Proof.RefValue.lean ====
/-
  The reference computes `A · (X · W)` by two host contractions; read at an index at the ideal values each is the
  row-times-column sum, so the reference's result is the layer `aggregate X A W` entry by entry.
-/
import proofs.«130303_g21698174779868_cont_sun_m_729_11_alg».proof.Proof.Gen.ReferenceIdeal.Read
import proofs.«130303_g21698174779868_cont_sun_m_729_11_alg».proof.Proof.LibPlainDot
import proofs.«130303_g21698174779868_cont_sun_m_729_11_alg».proof.Proof.LibAdjacencyProduct
import Idealize.ShloMosaic.Lib.ValueIdx
import Idealize.ShloMosaic.PureOps.Ideal.Laws

noncomputable section

namespace Cert.ReferenceIdeal.RefValue

open Cert.ReferenceIdeal Cert.ReferenceIdeal.Gen
open Idealize.ShloMosaic Idealize.ShloMosaic.ValueIdx Cert.DenseLayer Cert.AdjacencyProduct

/-- The reference's result, as a function of its three arguments, is the layer. -/
theorem ref_eq (x0 : (⟨S10000x128, .f32⟩ : BufTy).Contents (Elt Ideal)) (x1 : (⟨S10000x10000, .f32⟩ : BufTy).Contents (Elt Ideal))
    (x2 : (⟨S128x128, .f32⟩ : BufTy).Contents (Elt Ideal)) :
    Cert.ReferenceIdeal.Read.val_main_v1 (F := Ideal) x0 x1 x2 = aggregate x0 x1 x2 := by
  funext i
  unfold Cert.ReferenceIdeal.Read.val_main_v1 Cert.ReferenceIdeal.Read.val_main_v0
  simp only [Host.dotGeneral]
  rw [Cert.DenseLayer.dotGeneral_apply (plainDot_of_axes _ rfl rfl rfl rfl rfl rfl)]
  unfold aggregate
  refine congrArg (fun s : Mat 10000 128 => prodRow x1 s (i 0) (i 1)) (funext fun j => ?_)
  exact Cert.DenseLayer.dotGeneral_apply (plainDot_of_axes _ rfl rfl rfl rfl rfl rfl) none _ x0 x2 j

end Cert.ReferenceIdeal.RefValue

end
-- ==== Proof.Claims.lean ====
/-
  The five conjuncts of the certificate.

  The word-level kernel's frame says nothing of the result and is proved with proof data that constrain nothing.
  The idealized kernel's run names the result array: every block written back is that block of the layer
  `A · (X · W)` of the launch contents, and the blocks cover the array. The reference's run computes the same layer by
  two host contractions. So from memories that agree on the three arguments both programs end with the layer.
-/
import proofs.«130303_g21698174779868_cont_sun_m_729_11_alg».proof.Defs
import proofs.«130303_g21698174779868_cont_sun_m_729_11_alg».proof.Proof.BitsFrame
import proofs.«130303_g21698174779868_cont_sun_m_729_11_alg».proof.Proof.IdealFrame
import proofs.«130303_g21698174779868_cont_sun_m_729_11_alg».proof.Proof.IdealValue
import proofs.«130303_g21698174779868_cont_sun_m_729_11_alg».proof.Proof.RefValue
import proofs.«130303_g21698174779868_cont_sun_m_729_11_alg».proof.Proof.Gen.ReferenceIdeal.Run
import proofs.«130303_g21698174779868_cont_sun_m_729_11_alg».proof.Proof.Gen.Pre_finite_inputs

noncomputable section

namespace Cert.Proof.Claims

open Idealize.ShloMosaic Idealize.ShloMosaic.TcCoe Idealize.SL.Sem

theorem frame_k : Cert.frame_Kernel := fun m ρ _ => Cert.Kernel.Body.frame m ρ

theorem frame_ki : Cert.frame_KernelIdeal := fun m ρ _ =>
  Cert.KernelIdeal.Gen.frame_of m ρ (Cert.KernelIdeal.Body.dats m) (Cert.KernelIdeal.Body.A_eq m) (Cert.KernelIdeal.Body.run_main m ρ)

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealized programs end with the layer of the launch contents. -/
theorem algebraic : Cert.algebraic_KernelIdeal_ReferenceIdeal := by
  intro m ρ m' ρ' _ hagree
  refine ⟨fun c => Cert.KernelIdeal.Body.layer m c, ?_, ?_⟩
  · refine (θ_run Cert.KernelIdeal.defs _ _).mono (fun r h c => ⟨?_, ?_, ?_, ?_⟩) (Cert.KernelIdeal.Body.run_main m ρ)
    · exact ((h c).1 3).trans (Cert.KernelIdeal.Body.final3 m c)
    · exact ((h c).1 0).trans (((Cert.KernelIdeal.Body.dats m 0 c).arrAt_in 0 rfl _).trans
        ((Cert.KernelIdeal.Body.A_eq m c 0).trans (Cert.KernelIdeal.Gen.V_main_arg0 m c)))
    · exact ((h c).1 1).trans (((Cert.KernelIdeal.Body.dats m 0 c).arrAt_in 1 rfl _).trans
        ((Cert.KernelIdeal.Body.A_eq m c 1).trans (Cert.KernelIdeal.Gen.V_main_arg1 m c)))
    · exact ((h c).1 2).trans (((Cert.KernelIdeal.Body.dats m 0 c).arrAt_in 2 rfl _).trans
        ((Cert.KernelIdeal.Body.A_eq m c 2).trans (Cert.KernelIdeal.Gen.V_main_arg2 m c)))
  · refine (θ_run Cert.ReferenceIdeal.defs _ _).mono (fun r h c => ⟨?_, (h c).2⟩)
      (Cert.ReferenceIdeal.Value.run (F := Ideal) m' ρ')
    rw [(h c).1, Cert.ReferenceIdeal.Read.val_main_v1_eq, Cert.ReferenceIdeal.RefValue.ref_eq,
      (hagree c).1, (hagree c).2.1, (hagree c).2.2]
    rfl

end Cert.Proof.Claims

end
-- ==== Proof.lean ====
/-
  The certificate: a graph-convolution layer `A · (X · W)` computed by one pipelined kernel — the support `X · W`
  computed once at the first grid point into a scratch that every later point reads, the adjacency matrix streamed in
  blocks of 640 rows, the last block cut at the array's end — against the same layer computed by two host
  contractions. The two frames of the kernel, the reference's frame, the (empty) idealization ledger and the equality of
  the two results over the extended reals are proved in Proof/Claims.lean and the modules it imports.
-/
import proofs.«130303_g21698174779868_cont_sun_m_729_11_alg».proof.Defs
import proofs.«130303_g21698174779868_cont_sun_m_729_11_alg».proof.Proof.Claims
import proofs.«130303_g21698174779868_cont_sun_m_729_11_alg».proof.Proof.Gen.Kernel
import proofs.«130303_g21698174779868_cont_sun_m_729_11_alg».proof.Proof.Gen.KernelIdeal
import proofs.«130303_g21698174779868_cont_sun_m_729_11_alg».proof.Proof.Gen.ReferenceIdeal
import proofs.«130303_g21698174779868_cont_sun_m_729_11_alg».proof.Proof.Gen.Pre_finite_inputs
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
